-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S2x3200000 : Shape := ⟨2, ![2, 3200000]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_
  bcast_S_S50x10 : S_.BroadcastsInDim S50x10 (![] : Fin 0 → Fin S50x10.rank)
  reducesTo_S50x10_S_d0_1 : S50x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S50x10 1) : IVec S_ 1 :=
  let main_c_5 : IVec S_ 1 := constantI S_ 1 1#1
  let main_v17 : IVec S_ 1 := (fun x v => Host.reduce IntOp.andi x v reducesTo_S50x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : FVec F S128x50 .f32) (main_arg2 : FVec F S50 .f32) (main_arg3 : FVec F S50x10 .f32) (main_arg4 : FVec F S10 .f32) (main_arg5 : IVec S2x3200000 32) (main_arg6 : IVec S2x1600000 32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x50 .f32 := Host.absf main_arg1
  let main_cst_0 : FVec F S_ .f32 := constant S_ .f32 0x7F800000#32
  let main_v5 : FVec F S128x50 .f32 := broadcastInDim S128x50 ![] bcast_S_S128x50 main_cst_0
  let main_v6 : IVec S128x50 1 := cmpf .olt main_v4 main_v5
  let main_c_1 : IVec S_ 1 := constantI S_ 1 1#1
  let main_v7 : IVec S_ 1 := (fun x v => Host.reduce IntOp.andi x v reducesTo_S128x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x10 .f32 := Host.absf main_arg3
  let main_cst_4 : FVec F S_ .f32 := constant S_ .f32 0x7F800000#32
  let main_v15 : FVec F S50x10 .f32 := broadcastInDim S50x10 ![] bcast_S_S50x10 main_cst_4
  let main_v16 : IVec S50x10 1 := cmpf .olt main_v14 main_v15
  fn_part1 (F := F) main_arg4 main_v13 main_v16
-- ==== Kernel.lean ====
abbrev S100000x128 : Shape := ⟨2, ![100000, 128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S2x3200000 : Shape := ⟨2, ![2, 3200000]⟩
abbrev S2x1600000 : Shape := ⟨2, ![2, 1600000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x50 : Shape := ⟨2, ![100000, 50]⟩
abbrev S5000x128 : Shape := ⟨2, ![5000, 128]⟩
abbrev S5000x50 : Shape := ⟨2, ![5000, 50]⟩
abbrev S3300000x50 : Shape := ⟨2, ![3300000, 50]⟩
abbrev S1x50 : Shape := ⟨2, ![1, 50]⟩
abbrev S100000x10 : Shape := ⟨2, ![100000, 10]⟩
abbrev S5000x10 : Shape := ⟨2, ![5000, 10]⟩
abbrev S3300000x10 : Shape := ⟨2, ![3300000, 10]⟩
abbrev S1x10 : Shape := ⟨2, ![1, 10]⟩
abbrev S10x100000 : Shape := ⟨2, ![10, 100000]⟩
abbrev S3200000x1 : Shape := ⟨2, ![3200000, 1]⟩
abbrev S10x3200000 : Shape := ⟨2, ![10, 3200000]⟩
abbrev S10x64000 : Shape := ⟨2, ![10, 64000]⟩
abbrev S1x64000 : Shape := ⟨2, ![1, 64000]⟩
abbrev S64000 : Shape := ⟨1, ![64000]⟩

abbrev nBuf : Space → Nat
  | .hbm => 117
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x50, .f32⟩
  | .hbm, ⟨2, _⟩ => ⟨S50, .f32⟩
  | .hbm, ⟨3, _⟩ => ⟨S50x10, .f32⟩
  | .hbm, ⟨4, _⟩ => ⟨S10, .f32⟩
  | .hbm, ⟨5, _⟩ => ⟨S2x3200000, .i32⟩
  | .hbm, ⟨6, _⟩ => ⟨S2x1600000, .i32⟩
  | .hbm, ⟨7, _⟩ => ⟨S2x1600000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x50, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x50, .f32⟩
  | .hbm, ⟨58, _⟩ => ⟨S3300000x1, .f32⟩
  | .hbm, ⟨59, _⟩ => ⟨S3300000x50, .f32⟩
  | .hbm, ⟨60, _⟩ => ⟨S3300000x50, .f32⟩
  | .hbm, ⟨61, _⟩ => ⟨S_, .f32⟩
  | .hbm, ⟨62, _⟩ => ⟨S100000x50, .f32⟩
  | .hbm, ⟨63, _⟩ => ⟨S3300000x1, .i32⟩
  | .hbm, ⟨64, _⟩ => ⟨S100000x50, .f32⟩
  | .hbm, ⟨65, _⟩ => ⟨S1x50, .f32⟩
  | .hbm, ⟨66, _⟩ => ⟨S100000x50, .f32⟩
  | .hbm, ⟨67, _⟩ => ⟨S100000x50, .f32⟩
  | .hbm, ⟨68, _⟩ => ⟨S_, .f32⟩
  | .hbm, ⟨69, _⟩ => ⟨S100000x50, .f32⟩
  | .hbm, ⟨70, _⟩ => ⟨S100000x50, .f32⟩
  | .hbm, ⟨71, _⟩ => ⟨S100000x10, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x10, .f32⟩
  | .hbm, ⟨81, _⟩ => ⟨S3300000x1, .f32⟩
  | .hbm, ⟨82, _⟩ => ⟨S3300000x10, .f32⟩
  | .hbm, ⟨83, _⟩ => ⟨S3300000x10, .f32⟩
  | .hbm, ⟨84, _⟩ => ⟨S_, .f32⟩
  | .hbm, ⟨85, _⟩ => ⟨S100000x10, .f32⟩
  | .hbm, ⟨86, _⟩ => ⟨S3300000x1, .i32⟩
  | .hbm, ⟨87, _⟩ => ⟨S100000x10, .f32⟩
  | .hbm, ⟨88, _⟩ => ⟨S1x10, .f32⟩
  | .hbm, ⟨89, _⟩ => ⟨S100000x10, .f32⟩
  | .hbm, ⟨90, _⟩ => ⟨S100000x10, .f32⟩
  | .hbm, ⟨91, _⟩ => ⟨S2x3200000, .i32⟩
  | .hbm, ⟨92, _⟩ => ⟨S1x3200000, .i32⟩
  | .hbm, ⟨93, _⟩ => ⟨S3200000, .i32⟩
  | .hbm, ⟨94, _⟩ => ⟨S1x3200000, .i32⟩
  | .hbm, ⟨95, _⟩ => ⟨S3200000, .i32⟩
  | .hbm, ⟨96, _⟩ => ⟨S10x100000, .f32⟩
  | .hbm, ⟨97, _⟩ => ⟨S_, .i32⟩
  | .hbm, ⟨98, _⟩ => ⟨S3200000, .i32⟩
  | .hbm, ⟨99, _⟩ => ⟨S3200000, .i1⟩
  | .hbm, ⟨100, _⟩ => ⟨S_, .i32⟩
  | .hbm, ⟨101, _⟩ => ⟨S3200000, .i32⟩
  | .hbm, ⟨102, _⟩ => ⟨S3200000, .i32⟩
  | .hbm, ⟨103, _⟩ => ⟨S3200000, .i32⟩
  | .hbm, ⟨104, _⟩ => ⟨S3200000x1, .i32⟩
  | .hbm, ⟨105, _⟩ => ⟨S10x3200000, .f32⟩
  | .hbm, ⟨106, _⟩ => ⟨S_, .i32⟩
  | .hbm, ⟨107, _⟩ => ⟨S3200000, .i32⟩
  | .hbm, ⟨108, _⟩ => ⟨S3200000, .i1⟩
  | .hbm, ⟨109, _⟩ => ⟨S_, .i32⟩
  | .hbm, ⟨110, _⟩ => ⟨S3200000, .i32⟩
  | .hbm, ⟨111, _⟩ => ⟨S3200000, .i32⟩
  | .hbm, ⟨112, _⟩ => ⟨S3200000, .i32⟩
  | .hbm, ⟨113, _⟩ => ⟨S3200000x1, .i32⟩
  | .hbm, ⟨114, _⟩ => ⟨S10x3200000, .f32⟩
  | .hbm, ⟨115, _⟩ => ⟨S1x3200000, .f32⟩
  | .hbm, ⟨116, _⟩ => ⟨S3200000, .f32⟩
  | .local _ .vmem, ⟨0, _⟩ => ⟨S5000x128, .f32⟩
  | .local _ .vmem, ⟨1, _⟩ => ⟨S5000x128, .f32⟩
  | .local _ .vmem, ⟨2, _⟩ => ⟨S128x50, .f32⟩
  | .local _ .vmem, ⟨3, _⟩ => ⟨S5000x50, .f32⟩
  | .local _ .vmem, ⟨4, _⟩ => ⟨S5000x50, .f32⟩
  | .local _ .vmem, ⟨5, _⟩ => ⟨S5000x50, .f32⟩
  | .local _ .vmem, ⟨6, _⟩ => ⟨S5000x50, .f32⟩
  | .local _ .vmem, ⟨7, _⟩ => ⟨S50x10, .f32⟩
  | .local _ .vmem, ⟨8, _⟩ => ⟨S5000x10, .f32⟩
  | .local _ .vmem, ⟨9, _⟩ => ⟨S5000x10, .f32⟩
  | .local _ .vmem, ⟨10, _⟩ => ⟨S10x64000, .f32⟩
  | .local _ .vmem, ⟨11, _⟩ => ⟨S10x64000, .f32⟩
  | .local _ .vmem, ⟨12, _⟩ => ⟨S10x64000, .f32⟩
  | .local _ .vmem, ⟨13, _⟩ => ⟨S10x64000, .f32⟩
  | .local _ .vmem, ⟨14, _⟩ => ⟨S1x64000, .f32⟩
  | .local _ .vmem, ⟨15, _⟩ => ⟨S1x64000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S10x64000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10x64000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S5000x50_S5000x50_0_0 : ∀ a, (![0, 0] : Fin 2 → Nat) a + S5000x50.size a ≤ S5000x50.size a
  h_S5000x50 : 0 < S5000x50.numel
  bcast_S3300000x1_S3300000x50_0_1 : S3300000x1.BroadcastsInDim S3300000x50 (![0, 1] : Fin 2 → Fin S3300000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  shapeCasts_S5000x50_S5000x50 : S5000x50.ShapeCasts S5000x50
  inb_S50x10_S50x10_0_0 : ∀ a, (![0, 0] : Fin 2 → Nat) a + S50x10.size a ≤ S50x10.size a
  h_S50x10 : 0 < S50x10.numel
  inb_S5000x10_S5000x10_0_0 : ∀ a, (![0, 0] : Fin 2 → Nat) a + S5000x10.size a ≤ S5000x10.size a
  h_S5000x10 : 0 < S5000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  concatenates_S2x1600000_S2x1600000_S2x3200000_d1 : Shape.Concatenates [S2x1600000, S2x1600000] S2x3200000 1
  transposes_S100000x10_S10x100000_1_0 : S100000x10.Transposes [1, 0] S10x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S10x64000_S10x64000_0_0 : ∀ a, (![0, 0] : Fin 2 → Nat) a + S10x64000.size a ≤ S10x64000.size a
  h_S10x64000 : 0 < S10x64000.numel
  shapeCasts_S10x64000_S10x64000 : S10x64000.ShapeCasts S10x64000
  reduces_S10x64000_S64000 : S10x64000.Reduces [0] S64000
  shapeCasts_S64000_S1x64000 : S64000.ShapeCasts S1x64000
  inb_S1x64000_S1x64000_0_0 : ∀ a, (![0, 0] : Fin 2 → Nat) a + S1x64000.size a ≤ S1x64000.size a
  h_S1x64000 : 0 < S1x64000.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x50_S5000x50_1_0_0_1_n_n_wf : DotDims.WF S5000x128 S128x50 S5000x50 [1] [0] [0] [1] [] []
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  dot_S5000x50_S50x10_S5000x10_1_0_0_1_n_n_wf : DotDims.WF S5000x50 S50x10 S5000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  gather_S10x100000_S3200000x1_S10x3200000_0_1_n_n_1_1_101_wf : GatherDims.WF S10x100000 S3200000x1 S10x3200000 [0] [1] [] [1] [] 1 ![10, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S128x50.size a
  hwx0_1 : ∀ i : grid0.Coords, EltTy.bits .f32 = 32 ∨ (Rect.block (s := S128x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x50.size a ≤ S100000x50.size a
  hwx0_2 : ∀ i : grid0.Coords, EltTy.bits .f32 = 32 ∨ (Rect.block (s := S100000x50) S5000x50.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S100000x50.size a
  hwx1_0 : ∀ i : grid1.Coords, EltTy.bits .f32 = 32 ∨ (Rect.block (s := S100000x50) S5000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x10.size a ≤ S50x10.size a
  hwx1_1 : ∀ i : grid1.Coords, EltTy.bits .f32 = 32 ∨ (Rect.block (s := S50x10) S50x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10x64000.size a ≤ S10x3200000.size a
  hwx2_0 : ∀ i : grid2.Coords, EltTy.bits .f32 = 32 ∨ (Rect.block (s := S10x3200000) S10x64000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10x64000.size a ≤ S10x3200000.size a
  hwx2_1 : ∀ i : grid2.Coords, EltTy.bits .f32 = 32 ∨ (Rect.block (s := S10x3200000) S10x64000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64000.size a ≤ S1x3200000.size a
  hwx2_2 : ∀ i : grid2.Coords, EltTy.bits .f32 = 32 ∨ (Rect.block (s := S1x3200000) S1x64000.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x50_S5000x50_1_0_0_1_n_n : DotDims S5000x128 S128x50 S5000x50 where
  lhsContracting := [1]
  rhsContracting := [0]
  lhsNonContracting := [0]
  rhsNonContracting := [1]
  lhsBatch := []
  rhsBatch := []
  wf := dot_S5000x128_S128x50_S5000x50_1_0_0_1_n_n_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def dot_S5000x50_S50x10_S5000x10_1_0_0_1_n_n : DotDims S5000x50 S50x10 S5000x10 where
  lhsContracting := [1]
  rhsContracting := [0]
  lhsNonContracting := [0]
  rhsNonContracting := [1]
  lhsBatch := []
  rhsBatch := []
  wf := dot_S5000x50_S50x10_S5000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def gather_S10x100000_S3200000x1_S10x3200000_0_1_n_n_1_1_101 : GatherDims S10x100000 S3200000x1 S10x3200000 where
  offsetDims := [0]
  collapsedSliceDims := [1]
  operandBatchingDims := []
  startIndicesBatchingDims := []
  startIndexMap := [1]
  indexVectorDim := 1
  sliceSizes := ![10, 1]
  wf := gather_S10x100000_S3200000x1_S10x3200000_0_1_n_n_1_1_101_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S50x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S10x64000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S10x64000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S1x64000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S2x3200000 : Shape := ⟨2, ![2, 3200000]⟩
abbrev S2x1600000 : Shape := ⟨2, ![2, 1600000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x50 : Shape := ⟨2, ![100000, 50]⟩
abbrev S_ : Shape := ⟨0, ![]⟩
abbrev S3300000x1 : Shape := ⟨2, ![3300000, 1]⟩
abbrev S3300000x50 : Shape := ⟨2, ![3300000, 50]⟩
abbrev S1x50 : Shape := ⟨2, ![1, 50]⟩
abbrev S100000x10 : Shape := ⟨2, ![100000, 10]⟩
abbrev S3300000x10 : Shape := ⟨2, ![3300000, 10]⟩
abbrev S1x10 : Shape := ⟨2, ![1, 10]⟩
abbrev S3200000x1 : Shape := ⟨2, ![3200000, 1]⟩
abbrev S3200000x10 : Shape := ⟨2, ![3200000, 10]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S128x50, .f32⟩
  | 2 => ⟨S50, .f32⟩
  | 3 => ⟨S50x10, .f32⟩
  | 4 => ⟨S10, .f32⟩
  | 5 => ⟨S2x3200000, .i32⟩
  | 6 => ⟨S2x1600000, .i32⟩
  | 7 => ⟨S2x1600000, .i32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S100000x50, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x50, .f32⟩
  | 58 => ⟨S3300000x1, .f32⟩
  | 59 => ⟨S3300000x50, .f32⟩
  | 60 => ⟨S3300000x50, .f32⟩
  | 61 => ⟨S_, .f32⟩
  | 62 => ⟨S100000x50, .f32⟩
  | 63 => ⟨S3300000x1, .i32⟩
  | 64 => ⟨S100000x50, .f32⟩
  | 65 => ⟨S1x50, .f32⟩
  | 66 => ⟨S100000x50, .f32⟩
  | 67 => ⟨S100000x50, .f32⟩
  | 68 => ⟨S_, .f32⟩
  | 69 => ⟨S100000x50, .f32⟩
  | 70 => ⟨S100000x50, .f32⟩
  | 71 => ⟨S100000x10, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x10, .f32⟩
  | 114 => ⟨S3300000x1, .f32⟩
  | 115 => ⟨S3300000x10, .f32⟩
  | 116 => ⟨S3300000x10, .f32⟩
  | 117 => ⟨S_, .f32⟩
  | 118 => ⟨S100000x10, .f32⟩
  | 119 => ⟨S3300000x1, .i32⟩
  | 120 => ⟨S100000x10, .f32⟩
  | 121 => ⟨S1x10, .f32⟩
  | 122 => ⟨S100000x10, .f32⟩
  | 123 => ⟨S100000x10, .f32⟩
  | 124 => ⟨S2x3200000, .i32⟩
  | 125 => ⟨S1x3200000, .i32⟩
  | 126 => ⟨S3200000, .i32⟩
  | 127 => ⟨S_, .i32⟩
  | _ => ⟨S100000x128, .f32⟩

abbrev hbmTy0_1 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000x10, .f32⟩
  | 8 => ⟨S1x3200000, .i32⟩
  | 9 => ⟨S3200000, .i32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x10, .f32⟩
  | 19 => ⟨S3200000x10, .f32⟩
  | 20 => ⟨S_, .f32⟩
  | 21 => ⟨S3200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_24 : Ref sig .tc := ⟨.hbm, 148, rfl⟩
abbrev main_v108 : Ref sig .tc := ⟨.hbm, 149, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x50_0_1 : S3300000x1.BroadcastsInDim S3300000x50 (![0, 1] : Fin 2 → Fin S3300000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  concatenates_S2x1600000_S2x1600000_S2x3200000_d1 : Shape.Concatenates [S2x1600000, S2x1600000] S2x3200000 1
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x10_S3200000_d1 : S3200000x10.ReducesTo [1] S3200000
  h_S_ : 0 < S_.numel
  dot_S100000x128_S128x50_S100000x50_1_0_0_1_n_n_wf : DotDims.WF S100000x128 S128x50 S100000x50 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  dot_S100000x50_S50x10_S100000x10_1_0_0_1_n_n_wf : DotDims.WF S100000x50 S50x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  gather_S100000x10_S3200000x1_S3200000x10_1_0_n_n_0_1_110_wf : GatherDims.WF S100000x10 S3200000x1 S3200000x10 [1] [0] [] [0] [] 1 ![1, 10]

variable [Facts₀]

def dot_S100000x128_S128x50_S100000x50_1_0_0_1_n_n : DotDims S100000x128 S128x50 S100000x50 where
  lhsContracting := [1]
  rhsContracting := [0]
  lhsNonContracting := [0]
  rhsNonContracting := [1]
  lhsBatch := []
  rhsBatch := []
  wf := dot_S100000x128_S128x50_S100000x50_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def dot_S100000x50_S50x10_S100000x10_1_0_0_1_n_n : DotDims S100000x50 S50x10 S100000x10 where
  lhsContracting := [1]
  rhsContracting := [0]
  lhsNonContracting := [0]
  rhsNonContracting := [1]
  lhsBatch := []
  rhsBatch := []
  wf := dot_S100000x50_S50x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf

class Facts : Prop extends Facts₀ where

variable [Facts]
-- ==== Proof.Spec.lean ====
/-
  The two array functions the kernel's three regions compute, index by index, on the extended reals.

  A matrix product: entry (r, j) of x·w is the sum over k of x[r, k] · w[k, j].
  A column dot product: entry (0, e) is the sum over the rows f of a[f, e] · b[f, e].
-/
import Idealize.ShloMosaic.PureOps.Ideal
import Idealize.ShloMosaic.Lib.ValueIdx

noncomputable section

open scoped BigOperators

namespace Cert.Spec

open Idealize.ShloMosaic Idealize.ShloMosaic.ValueIdx

/-- The product of an [M, K] array and a [K, N] array: entry (r, j) is the sum over k of x[r, k] · w[k, j]. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- The column dot products of two [C, L] arrays, as a [1, L] array: entry (0, e) is the sum over the rows f of
    a[f, e] · b[f, e]. -/
def colDot {C L : Nat} (a b : (⟨2, ![C, L]⟩ : Shape).Idx → EReal) : (⟨2, ![1, L]⟩ : Shape).Idx → EReal :=
  fun i => ∑ f : Fin C, a (ix2 f (⟨(i 1).val, idx2_lt1 i⟩ : Fin L)) * b (ix2 f (⟨(i 1).val, idx2_lt1 i⟩ : Fin L))

end Cert.Spec

end
-- ==== Proof.ChainA.lean ====
/-
  What the kernel program's buffers hold when its first region is entered, written through the reference's own stage
  functions: the source and destination lists with the self-loops appended, the normalisation dinv[src] · dinv[dst] (the
  kernel computes it once, the reference once per layer, from the same edge list: one term), and the launch arguments,
  which no host operation writes.  Also: the product of two arrays, entry by entry, is the reference's dot_general.
-/
import proofs.«103603_j46858093199675_1_alg».proof.Proof.Gen.KernelIdeal.Frame
import proofs.«103603_j46858093199675_1_alg».proof.Proof.RefRead
import proofs.«103603_j46858093199675_1_alg».proof.Proof.Spec
import Idealize.ShloMosaic.Lib.StableHlo.Run

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

/-! ## The matrix products are the reference's dot_generals -/

/-- The product of a [100000, 128] and a [128, 50] array is the reference's first dot_general of them. -/
theorem mm_eq_v7 (x0 : (⟨2, ![100000, 128]⟩ : Shape).Idx → EReal) (x1 : (⟨2, ![128, 50]⟩ : Shape).Idx → EReal) :
    Cert.Spec.mm (M := 100000) (K := 128) (N := 50) x0 x1 = Cert.ReferenceIdeal.ReadP.val_main_v7 (F := Ideal) x0 x1 := by
  funext i
  rw [Cert.ReferenceIdeal.ReadP.val_main_v7_apply]
  unfold Cert.Spec.mm
  refine Finset.sum_congr rfl fun k _ => ?_
  congr 2 <;> (funext a; match a with | ⟨0, _⟩ => rfl | ⟨1, _⟩ => rfl)

/-- The product of the first layer's output and a [50, 10] array is the reference's second dot_general. -/
theorem mm_eq_v48 (x0 : (⟨2, ![100000, 128]⟩ : Shape).Idx → EReal) (x1 : (⟨2, ![128, 50]⟩ : Shape).Idx → EReal)
    (x2 : (⟨1, ![50]⟩ : Shape).Idx → EReal) (x3 : (⟨2, ![50, 10]⟩ : Shape).Idx → EReal)
    (x5 : IVec ⟨2, ![2, 3200000]⟩ 32) :
    Cert.Spec.mm (M := 100000) (K := 50) (N := 10) (Cert.ReferenceIdeal.ReadP.val_main_v47 (F := Ideal) x0 x1 x2 x5) x3
      = Cert.ReferenceIdeal.ReadP.val_main_v48 (F := Ideal) x0 x1 x2 x3 x5 := by
  funext i
  rw [Cert.ReferenceIdeal.ReadP.val_main_v48_apply]
  unfold Cert.Spec.mm
  refine Finset.sum_congr rfl fun k _ => ?_
  congr 2 <;> (funext a; match a with | ⟨0, _⟩ => rfl | ⟨1, _⟩ => rfl)

section Generic

variable {F : FTy → Type} [FloatOps F]
variable (m : (ℓ : Loc nD τ sig) → Buf (Elt F) ℓ) (ρ : Dev nD → PrngReg)

/-! ## Before region 0: the edge lists, the normalisation, the arguments -/

/-- The source list with the self-loops appended. -/
theorem w3_v3 (c : Dev nD) :
    W3 m ρ c (Proc.devRef .tc main_v3) = Cert.ReferenceIdeal.ReadP.val_main_v3 (F := F) (m ((c : Thread nD τ).loc main_arg5)) := by
  show StableHlo.after hostOps0_2 (StableHlo.after hostOps0_1 (StableHlo.after hostOps0 (W0 m ρ c))) (Proc.devRef .tc main_v3) = _
  after_results
  rfl

/-- The destination list with the self-loops appended. -/
theorem w3_v6 (c : Dev nD) :
    W3 m ρ c (Proc.devRef .tc main_v6) = Cert.ReferenceIdeal.ReadP.val_main_v6 (F := F) (m ((c : Thread nD τ).loc main_arg5)) := by
  show StableHlo.after hostOps0_2 (StableHlo.after hostOps0_1 (StableHlo.after hostOps0 (W0 m ρ c))) (Proc.devRef .tc main_v6) = _
  after_results
  rfl

set_option maxHeartbeats 20000000 in
/-- The normalisation dinv[src] · dinv[dst], as the reference's first layer computes it. -/
theorem w3_v29 (c : Dev nD) :
    W3 m ρ c (Proc.devRef .tc main_v29) = Cert.ReferenceIdeal.ReadP.val_main_v30 (F := F) (m ((c : Thread nD τ).loc main_arg5)) := by
  show StableHlo.after hostOps0_2 (StableHlo.after hostOps0_1 (StableHlo.after hostOps0 (W0 m ρ c))) (Proc.devRef .tc main_v29) = _
  after_results_simp
  (try simp only [TRef.ofBuf, TRef.toBuf, cast_eq])
  rfl

/-- The reference's second layer computes the normalisation again from the same edge list: the same term. -/
theorem v30_eq_v71 (x5 : (⟨Cert.ReferenceIdeal.S2x3200000, .i32⟩ : BufTy).Contents (Elt F)) :
    Cert.ReferenceIdeal.ReadP.val_main_v30 (F := F) x5 = Cert.ReferenceIdeal.ReadP.val_main_v71 (F := F) x5 := rfl

set_option maxHeartbeats 20000000 in
/-- No host operation before region 0 writes argument 0. -/
theorem w3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

set_option maxHeartbeats 20000000 in
/-- No host operation before region 0 writes argument 1. -/
theorem w3_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp

set_option maxHeartbeats 20000000 in
/-- No host operation before region 0 writes argument 2. -/
theorem w3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp

set_option maxHeartbeats 20000000 in
/-- No host operation before region 0 writes argument 3. -/
theorem w3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp

set_option maxHeartbeats 20000000 in
/-- No host operation before region 0 writes argument 4. -/
theorem w3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp

set_option maxHeartbeats 20000000 in
/-- No host operation before region 0 writes argument 6. -/
theorem w3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp

set_option maxHeartbeats 20000000 in
/-- No host operation before region 0 writes argument 7. -/
theorem w3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp

end Generic

end Cert.KernelIdeal.Chain

end
-- ==== Proof.ChainB.lean ====
/-
  From the first matrix product to the second.  With region 0's result array the reference's first dot_general, the
  kernel program's next host stretch (the row gather by source, the scaling by the normalisation, the scatter-add by
  destination, the bias, the rectifier) is the reference's first layer on the same terms; and the buffers the later
  stretches read (edge lists, normalisation, the remaining arguments) are written by nothing in between.
-/
import proofs.«103603_j46858093199675_1_alg».proof.Proof.ChainA

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

section Generic

variable {F : FTy → Type} [FloatOps F]
variable (m : (ℓ : Loc nD τ sig) → Buf (Elt F) ℓ) (ρ : Dev nD → PrngReg)

/-! ## Region 0 to region 1: the first layer -/

set_option maxHeartbeats 20000000 in
/-- With region 0's result the reference's first dot_general, region 1's left operand is the reference's first-layer
    output: the row gather by source, the scaling by the normalisation, the scatter-add by destination, the bias and
    the rectifier are the same operations on both sides. -/
theorem w6_v47 (c : Dev nD) (x0 : (⟨Cert.ReferenceIdeal.S100000x128, .f32⟩ : BufTy).Contents (Elt F))
    (x1 : (⟨Cert.ReferenceIdeal.S128x50, .f32⟩ : BufTy).Contents (Elt F))
    (hH : W4 m ρ c (Proc.devRef .tc main_v30) = Cert.ReferenceIdeal.ReadP.val_main_v7 (F := F) x0 x1) :
    W6 m ρ c (Proc.devRef .tc main_v47) = Cert.ReferenceIdeal.ReadP.val_main_v47 (F := F) x0 x1 (m ((c : Thread nD τ).loc main_arg2)) (m ((c : Thread nD τ).loc main_arg5)) := by
  show StableHlo.after hostOps1_1 (StableHlo.after hostOps1 (W4 m ρ c)) (Proc.devRef .tc main_v47) = _
  after_results_simp
  (try simp only [TRef.ofBuf, TRef.toBuf, cast_eq])
  rw [hH, W4_of_ne m ρ c main_v3 (by decide), W4_of_ne m ρ c main_v6 (by decide), W4_of_ne m ρ c main_v29 (by decide),
    W4_of_ne m ρ c main_arg2 (by decide), w3_v3, w3_v6, w3_v29, w3_arg2]
  rfl

set_option maxHeartbeats 20000000 in
/-- Region 1's right operand is the fourth argument as launched. -/
theorem w6_arg3 (c : Dev nD) : W6 m ρ c (Proc.devRef .tc main_arg3) = (m ((c : Thread nD τ).loc main_arg3)) := by
  have h64 : W6 m ρ c (Proc.devRef .tc main_arg3) = W4 m ρ c (Proc.devRef .tc main_arg3) := by
    show StableHlo.after hostOps1_1 (StableHlo.after hostOps1 (W4 m ρ c)) (Proc.devRef .tc main_arg3) = _
    after_results_simp
  exact h64.trans ((W4_of_ne m ρ c main_arg3 (by decide)).trans (w3_arg3 m ρ c))

set_option maxHeartbeats 20000000 in
/-- The source list is written by no operation between the two matrix products and by neither product. -/
theorem w7_v3 (c : Dev nD) : W7 m ρ c (Proc.devRef .tc main_v3) = W3 m ρ c (Proc.devRef .tc main_v3) := by
  have h64 : W6 m ρ c (Proc.devRef .tc main_v3) = W4 m ρ c (Proc.devRef .tc main_v3) := by
    show StableHlo.after hostOps1_1 (StableHlo.after hostOps1 (W4 m ρ c)) (Proc.devRef .tc main_v3) = _
    after_results_simp
  exact (W7_of_ne m ρ c main_v3 (by decide)).trans (h64.trans (W4_of_ne m ρ c main_v3 (by decide)))

set_option maxHeartbeats 20000000 in
/-- The destination list is written by no operation between the two matrix products and by neither product. -/
theorem w7_v6 (c : Dev nD) : W7 m ρ c (Proc.devRef .tc main_v6) = W3 m ρ c (Proc.devRef .tc main_v6) := by
  have h64 : W6 m ρ c (Proc.devRef .tc main_v6) = W4 m ρ c (Proc.devRef .tc main_v6) := by
    show StableHlo.after hostOps1_1 (StableHlo.after hostOps1 (W4 m ρ c)) (Proc.devRef .tc main_v6) = _
    after_results_simp
  exact (W7_of_ne m ρ c main_v6 (by decide)).trans (h64.trans (W4_of_ne m ρ c main_v6 (by decide)))

set_option maxHeartbeats 20000000 in
/-- The normalisation is written by no operation between the two matrix products and by neither product. -/
theorem w7_v29 (c : Dev nD) : W7 m ρ c (Proc.devRef .tc main_v29) = W3 m ρ c (Proc.devRef .tc main_v29) := by
  have h64 : W6 m ρ c (Proc.devRef .tc main_v29) = W4 m ρ c (Proc.devRef .tc main_v29) := by
    show StableHlo.after hostOps1_1 (StableHlo.after hostOps1 (W4 m ρ c)) (Proc.devRef .tc main_v29) = _
    after_results_simp
  exact (W7_of_ne m ρ c main_v29 (by decide)).trans (h64.trans (W4_of_ne m ρ c main_v29 (by decide)))

set_option maxHeartbeats 20000000 in
/-- The second bias is written by no operation between the two matrix products and by neither product. -/
theorem w7_arg4 (c : Dev nD) : W7 m ρ c (Proc.devRef .tc main_arg4) = W3 m ρ c (Proc.devRef .tc main_arg4) := by
  have h64 : W6 m ρ c (Proc.devRef .tc main_arg4) = W4 m ρ c (Proc.devRef .tc main_arg4) := by
    show StableHlo.after hostOps1_1 (StableHlo.after hostOps1 (W4 m ρ c)) (Proc.devRef .tc main_arg4) = _
    after_results_simp
  exact (W7_of_ne m ρ c main_arg4 (by decide)).trans (h64.trans (W4_of_ne m ρ c main_arg4 (by decide)))

set_option maxHeartbeats 20000000 in
/-- The positive decode edges is written by no operation between the two matrix products and by neither product. -/
theorem w7_arg6 (c : Dev nD) : W7 m ρ c (Proc.devRef .tc main_arg6) = W3 m ρ c (Proc.devRef .tc main_arg6) := by
  have h64 : W6 m ρ c (Proc.devRef .tc main_arg6) = W4 m ρ c (Proc.devRef .tc main_arg6) := by
    show StableHlo.after hostOps1_1 (StableHlo.after hostOps1 (W4 m ρ c)) (Proc.devRef .tc main_arg6) = _
    after_results_simp
  exact (W7_of_ne m ρ c main_arg6 (by decide)).trans (h64.trans (W4_of_ne m ρ c main_arg6 (by decide)))

set_option maxHeartbeats 20000000 in
/-- The negative decode edges is written by no operation between the two matrix products and by neither product. -/
theorem w7_arg7 (c : Dev nD) : W7 m ρ c (Proc.devRef .tc main_arg7) = W3 m ρ c (Proc.devRef .tc main_arg7) := by
  have h64 : W6 m ρ c (Proc.devRef .tc main_arg7) = W4 m ρ c (Proc.devRef .tc main_arg7) := by
    show StableHlo.after hostOps1_1 (StableHlo.after hostOps1 (W4 m ρ c)) (Proc.devRef .tc main_arg7) = _
    after_results_simp
  exact (W7_of_ne m ρ c main_arg7 (by decide)).trans (h64.trans (W4_of_ne m ρ c main_arg7 (by decide)))

end Generic

end Cert.KernelIdeal.Chain

end
-- ==== Proof.ChainC.lean ====
/-
  From the second matrix product to the result.  With region 1's result array the reference's second dot_general,
  the kernel program's next host stretch is the reference's second layer followed by a transposition and two column
  gathers at the endpoints of the decode edges; the one operation after region 2 reads its [1, 3200000] array as a vector.
-/
import proofs.«103603_j46858093199675_1_alg».proof.Proof.ChainB

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

/-- What a buffer holds after a line of host operations, one operation at a time: at its own result buffer an operation's
    value of its operands' contents, at any other buffer what was there before.  (The operands of a concatenate are read
    this way.) -/
local macro "results_by_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

section Generic

variable {F : FTy → Type} [FloatOps F]
variable (m : (ℓ : Loc nD τ sig) → Buf (Elt F) ℓ) (ρ : Dev nD → PrngReg)

/-! ## Region 1 to region 2: the second layer, transposed, gathered at the decode edges -/

set_option maxHeartbeats 20000000 in
/-- With region 1's result the reference's second dot_general, region 2's first operand is the column gather, at the
    first endpoints of the decode edges, of the transposed node table z — z the reference's second-layer output. -/
theorem w8_v77 (c : Dev nD) (x0 : (⟨Cert.ReferenceIdeal.S100000x128, .f32⟩ : BufTy).Contents (Elt F))
    (x1 : (⟨Cert.ReferenceIdeal.S128x50, .f32⟩ : BufTy).Contents (Elt F))
    (x2 : (⟨Cert.ReferenceIdeal.S50, .f32⟩ : BufTy).Contents (Elt F))
    (x3 : (⟨Cert.ReferenceIdeal.S50x10, .f32⟩ : BufTy).Contents (Elt F))
    (hZ : W7 m ρ c (Proc.devRef .tc main_v48) = Cert.ReferenceIdeal.ReadP.val_main_v48 (F := F) x0 x1 x2 x3 (m ((c : Thread nD τ).loc main_arg5))) :
    W8 m ρ c (Proc.devRef .tc main_v77)
      = Host.gather gather_S10x100000_S3200000x1_S10x3200000_0_1_n_n_1_1_101
          (transpose S10x100000 [1, 0] (Cert.ReferenceIdeal.ReadP.val_main_v87 (F := F) x0 x1 x2 x3 (m ((c : Thread nD τ).loc main_arg4)) (m ((c : Thread nD τ).loc main_arg5))) transposes_S100000x10_S10x100000_1_0)
          (Cert.ReferenceIdeal.ReadP.val_main_v96 (F := F) (m ((c : Thread nD τ).loc main_arg6)) (m ((c : Thread nD τ).loc main_arg7))) := by
  show StableHlo.after hostOps2 (W7 m ρ c) (Proc.devRef .tc main_v77) = _
  after_results_simp
  results_by_rw
  rw [hZ, w7_v3, w7_v6, w7_v29, w7_arg4, w7_arg6, w7_arg7, w3_v3, w3_v6, w3_v29, w3_arg4, w3_arg6, w3_arg7, v30_eq_v71]
  rfl

set_option maxHeartbeats 20000000 in
/-- Region 2's second operand: the same at the second endpoints of the decode edges. -/
theorem w8_v84 (c : Dev nD) (x0 : (⟨Cert.ReferenceIdeal.S100000x128, .f32⟩ : BufTy).Contents (Elt F))
    (x1 : (⟨Cert.ReferenceIdeal.S128x50, .f32⟩ : BufTy).Contents (Elt F))
    (x2 : (⟨Cert.ReferenceIdeal.S50, .f32⟩ : BufTy).Contents (Elt F))
    (x3 : (⟨Cert.ReferenceIdeal.S50x10, .f32⟩ : BufTy).Contents (Elt F))
    (hZ : W7 m ρ c (Proc.devRef .tc main_v48) = Cert.ReferenceIdeal.ReadP.val_main_v48 (F := F) x0 x1 x2 x3 (m ((c : Thread nD τ).loc main_arg5))) :
    W8 m ρ c (Proc.devRef .tc main_v84)
      = Host.gather gather_S10x100000_S3200000x1_S10x3200000_0_1_n_n_1_1_101
          (transpose S10x100000 [1, 0] (Cert.ReferenceIdeal.ReadP.val_main_v87 (F := F) x0 x1 x2 x3 (m ((c : Thread nD τ).loc main_arg4)) (m ((c : Thread nD τ).loc main_arg5))) transposes_S100000x10_S10x100000_1_0)
          (Cert.ReferenceIdeal.ReadP.val_main_v105 (F := F) (m ((c : Thread nD τ).loc main_arg6)) (m ((c : Thread nD τ).loc main_arg7))) := by
  show StableHlo.after hostOps2 (W7 m ρ c) (Proc.devRef .tc main_v84) = _
  after_results_simp
  results_by_rw
  rw [hZ, w7_v3, w7_v6, w7_v29, w7_arg4, w7_arg6, w7_arg7, w3_v3, w3_v6, w3_v29, w3_arg4, w3_arg6, w3_arg7, v30_eq_v71]
  rfl

/-! ## After region 2: the result is its [1, 3200000] array read as a vector -/

/-- The one host operation after region 2 reshapes its [1, 3200000] result to the [3200000] result of @main. -/
theorem w10_v86 (c : Dev nD) :
    W10 m ρ c (Proc.devRef .tc main_v86)
      = shapeCast S3200000 (W9 m ρ c (Proc.devRef .tc main_v85)) shapeCasts_S1x3200000_S3200000 := by
  show StableHlo.after hostOps3 (W9 m ρ c) (Proc.devRef .tc main_v86) = _
  after_results
  rfl

end Generic

end Cert.KernelIdeal.Chain

end
-- ==== Proof.MatVal0.lean ====
/-
  Region 0 of the kernel program (a matrix product tiled over 20 blocks of 5000 rows), read as a value.

  Each grid point t loads rows [5000·t, 5000·t + 5000) of the [100000, 128] left operand and the whole [128, 50] right
  operand, and stores their product (the narrowing to bf16 is the identity on the extended reals; the accumulator
  is the zero array) as rows [5000·t, 5000·t + 5000) of the [100000, 50] result.  The 20 row blocks tile the result,
  so after the region the result array is the product of the two operand arrays as the region found them.
-/
import proofs.«103603_j46858093199675_1_alg».proof.Proof.Gen.KernelIdeal.Frame
import proofs.«103603_j46858093199675_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatVal0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The body's product at an index -/

/-- For the result's entry i the left operand is read on i's row. -/
theorem lhs_row (i : S5000x50.Idx) (q : dot_S5000x128_S128x50_S5000x50_1_0_0_1_n_n.contr.Idx) :
    (dot_S5000x128_S128x50_S5000x50_1_0_0_1_n_n.lhsIdx i q 0).val = (i 0).val := by
  unfold DotDims.lhsIdx
  rw [dif_neg (show ¬(0 : Fin S5000x128.rank) ∈ dot_S5000x128_S128x50_S5000x50_1_0_0_1_n_n.lhsBatch by decide), dif_pos (show (0 : Fin S5000x128.rank) ∈ dot_S5000x128_S128x50_S5000x50_1_0_0_1_n_n.lhsNonContracting by decide)]
  rfl
/-- The left operand's column is the contraction index. -/
theorem lhs_col (i : S5000x50.Idx) (q : dot_S5000x128_S128x50_S5000x50_1_0_0_1_n_n.contr.Idx) :
    (dot_S5000x128_S128x50_S5000x50_1_0_0_1_n_n.lhsIdx i q 1).val = (q ⟨0, by decide⟩).val :=
  dot_S5000x128_S128x50_S5000x50_1_0_0_1_n_n.lhsIdx_val_of_single rfl i q
/-- The right operand's row is the contraction index. -/
theorem rhs_row (i : S5000x50.Idx) (q : dot_S5000x128_S128x50_S5000x50_1_0_0_1_n_n.contr.Idx) :
    (dot_S5000x128_S128x50_S5000x50_1_0_0_1_n_n.rhsIdx i q 0).val = (q ⟨0, by decide⟩).val :=
  dot_S5000x128_S128x50_S5000x50_1_0_0_1_n_n.rhsIdx_val_of_single rfl i q
/-- For the result's entry i the right operand is read on i's column. -/
theorem rhs_col (i : S5000x50.Idx) (q : dot_S5000x128_S128x50_S5000x50_1_0_0_1_n_n.contr.Idx) :
    (dot_S5000x128_S128x50_S5000x50_1_0_0_1_n_n.rhsIdx i q 1).val = (i 1).val := by
  unfold DotDims.rhsIdx
  rw [dif_neg (show ¬(1 : Fin S128x50.rank) ∈ dot_S5000x128_S128x50_S5000x50_1_0_0_1_n_n.rhsBatch by decide), dif_pos (show (1 : Fin S128x50.rank) ∈ dot_S5000x128_S128x50_S5000x50_1_0_0_1_n_n.rhsNonContracting by decide)]
  rfl

/-- The body's payload at entry (p, q) of its block: the sum over k of the left block at (p, k) times the right
    block at (k, q).  The narrowing of both operands is the identity on the extended reals and the accumulator is zero. -/
theorem pay_apply (x0 : Vec Ideal S5000x128 .f32) (x1 : Vec Ideal S128x50 .f32) (p : Fin 5000) (q : Fin 50) :
    k0_pay1 (F := Ideal) x0 x1 (ix2 p q) = ∑ k : Fin 128, x0 (ix2 p k) * x1 (ix2 k q) := by
  unfold k0_pay1
  show FloatOps.matmul dot_S5000x128_S128x50_S5000x50_1_0_0_1_n_n none (truncf .bf16 x0 bitsLt_bf16_f32) (truncf .bf16 x1 bitsLt_bf16_f32) (constant (F := Ideal) S5000x50 .f32 0x00000000#32) (ix2 p q) = _
  rw [Ideal.matmul_constant_zero_apply, ← Equiv.sum_comp (ValueIdx.contrEquiv1 dot_S5000x128_S128x50_S5000x50_1_0_0_1_n_n 128 rfl rfl).symm]
  refine Finset.sum_congr rfl fun k _ => ?_
  have hk := ValueIdx.contrEquiv1_symm_val dot_S5000x128_S128x50_S5000x50_1_0_0_1_n_n 128 rfl rfl k
  have el : dot_S5000x128_S128x50_S5000x50_1_0_0_1_n_n.lhsIdx (ix2 p q) ((ValueIdx.contrEquiv1 dot_S5000x128_S128x50_S5000x50_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x50_S5000x50_1_0_0_1_n_n.rhsIdx (ix2 p q) ((ValueIdx.contrEquiv1 dot_S5000x128_S128x50_S5000x50_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

/-! ## The printed index maps over the grid -/

/-- The zero offsets of the body's whole-block accesses. -/
theorem hz : (![0, 0] : Fin 2 → Nat) = fun _ => 0 := funext fun a => by fin_cases a <;> rfl

/-- At every point the left operand's row block is the result's row block, every other block index is zero, and the
    result's row block index is one of the 20. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks of the result is some point's. -/
theorem idx_onto : ∀ q : Fin 20, ∃ t : Fin cfg0.N, win0_2.index t = ![q.val, 0] :=
  (by decide +kernel : ∀ q : Fin 20, ∃ t : Fin grid0.N, win0_2.index t = ![q.val, 0])

/-! ## One point's block of the result -/

/-- If a [5000, 128] block holds row (i 0) of X0 on its row (j 0), and a [128, 50] block holds column (i 1) of X1 on
    its column (j 1), the body's payload at j is entry i of the product of X0 and X1. -/
theorem pay_block (X0 : S100000x128.Idx → EReal) (X1 : S128x50.Idx → EReal)
    (x0 : Vec Ideal S5000x128 .f32) (x1 : Vec Ideal S128x50 .f32) (j : S5000x50.Idx) (i : S100000x50.Idx)
    (h0 : ∀ k : Fin 128, x0 (ix2 (⟨(j 0).val, idx2_lt0 j⟩ : Fin 5000) k) = X0 (ix2 (⟨(i 0).val, idx2_lt0 i⟩ : Fin 100000) k))
    (h1 : ∀ k : Fin 128, x1 (ix2 k (⟨(j 1).val, idx2_lt1 j⟩ : Fin 50)) = X1 (ix2 k (⟨(i 1).val, idx2_lt1 i⟩ : Fin 50))) :
    k0_pay1 (F := Ideal) x0 x1 j = Cert.Spec.mm (M := 100000) (K := 128) (N := 50) X0 X1 i := by
  obtain ⟨p, q, rfl⟩ : ∃ (p : Fin 5000) (q : Fin 50), j = ix2 p q := ⟨j 0, j 1, eq_ix2 j⟩
  rw [pay_apply]
  exact Finset.sum_congr rfl fun k _ => congrArg₂ (· * ·) (h0 k) (h1 k)

/-- What point t writes back is block t of the product of the two operand arrays. -/
theorem flushed_eq (c : Dev nD) (t : Fin cfg0.N) :
    (dat0 (F := Ideal) V c).flushed 2 t = ((cfg0.win 2).blk t).view.read (Elt Ideal)
      (Cert.Spec.mm (M := 100000) (K := 128) (N := 50) (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x50) hz]
  obtain ⟨e0, e1, e2, e3, e4, e5⟩ := idx_facts t
  funext j
  show k0_pay1 (F := Ideal) (iblk0 V c 0 t) (iblk0 V c 1 t) ((win0 2).xinj (grid0.coords t) j)
     = Cert.Spec.mm (M := 100000) (K := 128) (N := 50) (V c main_arg0) (V c main_arg1) (((cfg0.win 2).blk t).view.emb j)
  refine pay_block _ _ _ _ _ _ (fun k => ?_) (fun k => ?_)
  · -- the left block's row (j 0) is row 5000·(block index) + (j 0) of the left operand, where the result's block puts it
    unfold iblk0
    rw [View.read_apply]
    show V c main_arg0 _ = V c main_arg0 _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · -- the right block is the whole right operand, and the result's block keeps the column
    unfold iblk0
    rw [View.read_apply]
    show V c main_arg1 _ = V c main_arg1 _
    refine congrArg _ ?_
    funext a; apply Fin.ext
    match a with
    | ⟨0, _⟩ => show win0_1.index t (0 : Fin 2) * 128 + 1 * k.val = k.val; omega
    | ⟨1, _⟩ => show win0_1.index t (1 : Fin 2) * 50 + 1 * (j 1).val = win0_2.index t (1 : Fin 2) * 50 + 1 * (j 1).val; omega

/-! ## The blocks tile the result -/

/-- An index of the result is in point t's block iff each coordinate is in the block's range on its axis. -/
theorem mem_blk (t : Fin cfg0.N) (i : S100000x50.Idx) :
    i ∈ ((cfg0.win 2).blk t).view.set ↔ ∀ a : Fin 2, win0_2.index t a * S5000x50.size a ≤ (i a).val ∧ (i a).val < win0_2.index t a * S5000x50.size a + S5000x50.size a := by
  show i ∈ ((View.whole main_v30).slice (win0_2.rect t)).set ↔ _
  rw [View.set_slice_whole, Rect.mem_set_unit]
  exact Iff.rfl

/-- Row r of the result is in the block of the point whose row block is r / 5000, and every point writes back. -/
theorem cover (i : S100000x50.Idx) :
    ∃ t : Fin cfg0.N, (cfg0.win 2).flush t = true ∧ i ∈ ((cfg0.win 2).blk t).view.set := by
  have hi0 : (i 0).val < 100000 := (i 0).isLt
  have hi1 : (i 1).val < 50 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 50 ≤ (i 1).val ∧ (i 1).val < win0_2.index t (1 : Fin 2) * 50 + 50; omega

/-! ## The array after the region -/

/-- After region 0 its result array is the product of its two operand arrays as the region found them. -/
theorem array0 (c : Dev nD) :
    (dat0 (F := Ideal) V c).arrAt 2 cfg0.N
      = Cert.Spec.mm (M := 100000) (K := 128) (N := 50) (V c main_arg0) (V c main_arg1) :=
  (dat0 (F := Ideal) V c).arrAt_eq_of_cover 2 _ (fun t _ => flushed_eq V c t) cover

end Cert.KernelIdeal.MatVal0

end
-- ==== Proof.MatVal1.lean ====
/-
  Region 1 of the kernel program (a matrix product tiled over 20 blocks of 5000 rows), read as a value.

  Each grid point t loads rows [5000·t, 5000·t + 5000) of the [100000, 50] left operand and the whole [50, 10] right
  operand, and stores their product (the narrowing to bf16 is the identity on the extended reals; the accumulator
  is the zero array) as rows [5000·t, 5000·t + 5000) of the [100000, 10] result.  The 20 row blocks tile the result,
  so after the region the result array is the product of the two operand arrays as the region found them.
-/
import proofs.«103603_j46858093199675_1_alg».proof.Proof.Gen.KernelIdeal.Frame
import proofs.«103603_j46858093199675_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatVal1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The payload at an index -/

/-- The left operand's index of a product term keeps the output's row. -/
theorem lhs_row (i : S5000x10.Idx) (q : dot_S5000x50_S50x10_S5000x10_1_0_0_1_n_n.contr.Idx) :
    (dot_S5000x50_S50x10_S5000x10_1_0_0_1_n_n.lhsIdx i q 0).val = (i 0).val := by
  unfold DotDims.lhsIdx
  rw [dif_neg (show ¬(0 : Fin S5000x50.rank) ∈ dot_S5000x50_S50x10_S5000x10_1_0_0_1_n_n.lhsBatch by decide), dif_pos (show (0 : Fin S5000x50.rank) ∈ dot_S5000x50_S50x10_S5000x10_1_0_0_1_n_n.lhsNonContracting by decide)]
  rfl
/-- The left operand's index of a product term has the contraction index as its column. -/
theorem lhs_col (i : S5000x10.Idx) (q : dot_S5000x50_S50x10_S5000x10_1_0_0_1_n_n.contr.Idx) :
    (dot_S5000x50_S50x10_S5000x10_1_0_0_1_n_n.lhsIdx i q 1).val = (q ⟨0, by decide⟩).val :=
  dot_S5000x50_S50x10_S5000x10_1_0_0_1_n_n.lhsIdx_val_of_single rfl i q
/-- The right operand's index of a product term has the contraction index as its row. -/
theorem rhs_row (i : S5000x10.Idx) (q : dot_S5000x50_S50x10_S5000x10_1_0_0_1_n_n.contr.Idx) :
    (dot_S5000x50_S50x10_S5000x10_1_0_0_1_n_n.rhsIdx i q 0).val = (q ⟨0, by decide⟩).val :=
  dot_S5000x50_S50x10_S5000x10_1_0_0_1_n_n.rhsIdx_val_of_single rfl i q
/-- The right operand's index of a product term keeps the output's column. -/
theorem rhs_col (i : S5000x10.Idx) (q : dot_S5000x50_S50x10_S5000x10_1_0_0_1_n_n.contr.Idx) :
    (dot_S5000x50_S50x10_S5000x10_1_0_0_1_n_n.rhsIdx i q 1).val = (i 1).val := by
  unfold DotDims.rhsIdx
  rw [dif_neg (show ¬(1 : Fin S50x10.rank) ∈ dot_S5000x50_S50x10_S5000x10_1_0_0_1_n_n.rhsBatch by decide), dif_pos (show (1 : Fin S50x10.rank) ∈ dot_S5000x50_S50x10_S5000x10_1_0_0_1_n_n.rhsNonContracting by decide)]
  rfl

/-- Entry (p, q) of the body's product of a [5000, 50] block and a [50, 10] block is the sum over k of
    x0[p, k] · x1[k, q]: the reshape to the same shape and the narrowing are identities on the extended reals, and
    the accumulator is the zero array. -/
theorem pay_apply (x0 : Vec Ideal S5000x50 .f32) (x1 : Vec Ideal S50x10 .f32) (p : Fin 5000) (q : Fin 10) :
    k1_pay1 (F := Ideal) x0 x1 (ix2 p q) = ∑ k : Fin 50, x0 (ix2 p k) * x1 (ix2 k q) := by
  unfold k1_pay1
  rw [shapeCast_self]
  simp only [matmul]
  rw [Ideal.matmul_constant_zero_apply, ← Equiv.sum_comp (ValueIdx.contrEquiv1 dot_S5000x50_S50x10_S5000x10_1_0_0_1_n_n 50 rfl rfl).symm]
  refine Finset.sum_congr rfl fun k _ => ?_
  have hk := ValueIdx.contrEquiv1_symm_val dot_S5000x50_S50x10_S5000x10_1_0_0_1_n_n 50 rfl rfl k
  have el : dot_S5000x50_S50x10_S5000x10_1_0_0_1_n_n.lhsIdx (ix2 p q) ((ValueIdx.contrEquiv1 dot_S5000x50_S50x10_S5000x10_1_0_0_1_n_n 50 rfl rfl).symm k) = ix2 p k := funext fun a => Fin.ext (by
    match a with
    | ⟨0, _⟩ => exact lhs_row _ _
    | ⟨1, _⟩ => exact (lhs_col _ _).trans hk)
  have er : dot_S5000x50_S50x10_S5000x10_1_0_0_1_n_n.rhsIdx (ix2 p q) ((ValueIdx.contrEquiv1 dot_S5000x50_S50x10_S5000x10_1_0_0_1_n_n 50 rfl rfl).symm k) = ix2 k q := funext fun a => Fin.ext (by
    match a with
    | ⟨0, _⟩ => exact (rhs_row _ _).trans hk
    | ⟨1, _⟩ => exact rhs_col _ _)
  rw [el, er]
  rfl

/-! ## The index maps over the grid -/

theorem off_zero : (![0, 0] : Fin 2 → Nat) = fun _ => 0 := funext fun a => by fin_cases a <;> rfl

/-- At every grid point the left operand's block row is the result's block row, every other block index is 0,
    and the result's block row is one of the 20. -/
theorem idx_rel : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks of the result is some grid point's. -/
theorem idx_onto : ∀ q : Fin 20, ∃ t : Fin cfg1.N, win1_2.index t = ![q.val, 0] :=
  (by decide +kernel : ∀ q : Fin 20, ∃ t : Fin grid1.N, win1_2.index t = ![q.val, 0])

/-! ## What a grid point writes back -/

/-- The left operand's block at point t, read at (p, k), is the array at row (block row)·5000 + p, column k. -/
theorem lhs_blk_apply (A : S100000x50.Idx → EReal) (t : Fin cfg1.N) (p : Fin 5000) (k : Fin 50) :
    ((cfg1.win 0).blk t).view.read (Elt Ideal) A (ix2 p k)
      = A (ix2 (⟨win1_2.index t (0 : Fin 2) * 5000 + p.val, by
          have h := (idx_rel t).2.2.2.2.2; have hp := p.isLt; omega⟩ : Fin 100000) k) := by
  obtain ⟨e0, e1, e2, e3, e4, e5⟩ := idx_rel t
  rw [View.read_apply]
  refine congrArg A (funext fun a => Fin.ext ?_)
  match a with
  | ⟨0, _⟩ => show win1_0.index t (0 : Fin 2) * 5000 + 1 * p.val = win1_2.index t (0 : Fin 2) * 5000 + p.val; omega
  | ⟨1, _⟩ => show win1_0.index t (1 : Fin 2) * 50 + 1 * k.val = k.val; omega

/-- The right operand's block at any point is the whole array. -/
theorem rhs_blk_apply (B : S50x10.Idx → EReal) (t : Fin cfg1.N) (k : Fin 50) (q : Fin 10) :
    ((cfg1.win 1).blk t).view.read (Elt Ideal) B (ix2 k q) = B (ix2 k q) := by
  obtain ⟨e0, e1, e2, e3, e4, e5⟩ := idx_rel t
  rw [View.read_apply]
  refine congrArg B (funext fun a => Fin.ext ?_)
  match a with
  | ⟨0, _⟩ => show win1_1.index t (0 : Fin 2) * 50 + 1 * k.val = k.val; omega
  | ⟨1, _⟩ => show win1_1.index t (1 : Fin 2) * 10 + 1 * q.val = q.val; omega

/-- The result's block at point t, read at (p, q), is the array at row (block row)·5000 + p, column q. -/
theorem out_blk_apply (G : S100000x10.Idx → EReal) (t : Fin cfg1.N) (p : Fin 5000) (q : Fin 10) :
    ((cfg1.win 2).blk t).view.read (Elt Ideal) G (ix2 p q)
      = G (ix2 (⟨win1_2.index t (0 : Fin 2) * 5000 + p.val, by
          have h := (idx_rel t).2.2.2.2.2; have hp := p.isLt; omega⟩ : Fin 100000) q) := by
  obtain ⟨e0, e1, e2, e3, e4, e5⟩ := idx_rel t
  rw [View.read_apply]
  refine congrArg G (funext fun a => Fin.ext ?_)
  match a with
  | ⟨0, _⟩ => show win1_2.index t (0 : Fin 2) * 5000 + 1 * p.val = win1_2.index t (0 : Fin 2) * 5000 + p.val; omega
  | ⟨1, _⟩ => show win1_2.index t (1 : Fin 2) * 10 + 1 * q.val = q.val; omega

/-- What point t writes back is block t of the product of the two operand arrays as the region found them. -/
theorem flushed_eq (c : Dev nD) (t : Fin cfg1.N) :
    (dat1 (F := Ideal) V c).flushed 2 t
      = ((cfg1.win 2).blk t).view.read (Elt Ideal)
          (Cert.Spec.mm (M := 100000) (K := 50) (N := 10) (V c main_v47) (V c main_arg3)) := by
  show (cfg1.win 2).cut (grid1.coords t) ((dat1 (F := Ideal) V c).after 2 t) = _
  rw [after1_2]
  unfold out1_2
  rw [View.canon_unit_zero off_zero]
  simp only [View.ld_unit_zero (S := S5000x50) off_zero, View.ld_unit_zero (S := S50x10) off_zero]
  funext j
  obtain ⟨p, q, rfl⟩ : ∃ (p : Fin 5000) (q : Fin 10), j = ix2 p q := ⟨j 0, j 1, eq_ix2 j⟩
  refine (pay_apply _ _ p q).trans ?_
  rw [out_blk_apply]
  unfold Cert.Spec.mm
  refine Finset.sum_congr rfl fun k _ => ?_
  unfold iblk1
  rw [lhs_blk_apply, rhs_blk_apply]

/-! ## The blocks cover the result -/

/-- An index of the result is in point t's block iff each coordinate is in the block's range on its axis. -/
theorem mem_blk (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v48).slice (win1_2.rect t)).set ↔ _
  rw [View.set_slice_whole, Rect.mem_set_unit]
  exact Iff.rfl

/-- Row r of the result lies in the block of the point whose block row is r / 5000. -/
theorem cover (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 10 ≤ (i 1).val ∧ (i 1).val < win1_2.index t (1 : Fin 2) * 10 + 10; omega

/-! ## The array after the region -/

/-- After region 1 its result array is the product of its two operand arrays as the region found them. -/
theorem array1 (c : Dev nD) :
    (dat1 (F := Ideal) V c).arrAt 2 cfg1.N
      = Cert.Spec.mm (M := 100000) (K := 50) (N := 10) (V c main_v47) (V c main_arg3) :=
  (dat1 (F := Ideal) V c).arrAt_eq_of_cover 2 _ (fun t _ => flushed_eq V c t) cover

end Cert.KernelIdeal.MatVal1

end
-- ==== Proof.DecVal.lean ====
/-
  Region 2 of the kernel program (the edge-wise dot product, tiled over 50 blocks of 64000 columns), read as a value.

  Each grid point t loads columns [64000·t, 64000·t + 64000) of the two [10, 3200000] operands, multiplies them entry by
  entry, sums over the 10 rows (from the zero accumulator) and stores the [1, 64000] row of sums as the same columns of
  the [1, 3200000] result.  The 50 column blocks tile the result, so after the region entry (0, e) of the result is the
  sum over the rows f of a[f, e] · b[f, e] of the two operand arrays as the region found them.
-/
import proofs.«103603_j46858093199675_1_alg».proof.Proof.Gen.KernelIdeal.Frame
import proofs.«103603_j46858093199675_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DecVal

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The zero offsets of a whole-block access, however the zeros are spelt. -/
theorem zeroOff : (![0, 0] : Fin 2 → Nat) = fun _ => 0 := funext fun a => by fin_cases a <;> rfl

/-- Entry (0, q) of the payload: the sum over the 10 rows f of x0[f, q] · x1[f, q].  The one-row cast reads lane q of
    the row sums, the row sum from the zero accumulator is the plain sum over the rows, and the two casts of a block to
    its own shape change nothing. -/
theorem pay_apply (x0 x1 : Vec Ideal S10x64000 .f32) (q : Fin 64000) :
    k2_pay1 (F := Ideal) x0 x1 (ix2 (0 : Fin 1) q) = ∑ f : Fin 10, x0 (ix2 f q) * x1 (ix2 f q) := by
  unfold k2_pay1
  refine (shapeCast_apply _ shapeCasts_S64000_S1x64000 (ix2 (0 : Fin 1) q) (ix1 q) ?_).trans ?_
  · rw [Shape.rowMajor_val_one, Shape.rowMajor_val_two]
    show q.val = 0 * 64000 + q.val
    omega
  refine (Ideal.multiReduction_add_single _ _ reduces_S10x64000_S64000 _ _ (ix1 q)).trans ?_
  refine Finset.sum_congr rfl fun f _ => ?_
  rw [shapeCast_self, shapeCast_self]
  have e : reduces_S10x64000_S64000.lift (ix1 q) f = ix2 (f : Fin 10) q := by
    funext a; apply Fin.ext
    match a with
    | ⟨0, _⟩ => rfl
    | ⟨1, _⟩ => rfl
  exact congrArg (fun i => x0 i * x1 i) e

/-- The printed index maps over the 50 grid points: both operand windows sit at row block 0 and move along the columns
    with the result window, which sits at row block 0 and at a column block below 50. -/
theorem idx_rel : ∀ t : Fin cfg2.N, win2_0.index t (0 : Fin 2) = 0
    ∧ win2_0.index t (1 : Fin 2) = win2_2.index t (1 : Fin 2)
    ∧ win2_1.index t (0 : Fin 2) = 0
    ∧ win2_1.index t (1 : Fin 2) = win2_2.index t (1 : Fin 2)
    ∧ win2_2.index t (0 : Fin 2) = 0
    ∧ win2_2.index t (1 : Fin 2) ≤ 49 :=
  (by decide +kernel : ∀ t : Fin grid2.N, _)

/-- Every column block of the result is some grid point's. -/
theorem idx_onto : ∀ q : Fin 50, ∃ t : Fin cfg2.N, win2_2.index t = ![0, q.val] :=
  (by decide +kernel : ∀ q : Fin 50, ∃ t : Fin grid2.N, win2_2.index t = ![0, q.val])

/-- Entry (f, q) of the first operand's block at grid point t is the array's entry at row f and at column q of the
    result's column block at t. -/
theorem iblk0_apply (c : Dev nD) (t : Fin cfg2.N) (f : Fin 10) (q : Fin 64000) (k : (⟨2, ![10, 3200000]⟩ : Shape).Idx)
    (hk0 : (k 0).val = f.val) (hk1 : (k 1).val = win2_2.index t (1 : Fin 2) * 64000 + q.val) :
    (iblk2 (F := Ideal) V c 0 t : Vec Ideal S10x64000 .f32) (ix2 f q)
      = (V c main_v77 : (⟨2, ![10, 3200000]⟩ : Shape).Idx → EReal) k := by
  obtain ⟨e0, e1, -⟩ := idx_rel t
  unfold iblk2
  rw [View.read_apply]
  show V c main_v77 _ = V c main_v77 _
  congr 1
  funext a
  apply Fin.ext
  match a with
  | ⟨0, _⟩ => show win2_0.index t (0 : Fin 2) * 10 + 1 * f.val = (k 0).val; rw [e0, hk0]; omega
  | ⟨1, _⟩ => show win2_0.index t (1 : Fin 2) * 64000 + 1 * q.val = (k 1).val; rw [e1, hk1]; omega

/-- The same for the second operand. -/
theorem iblk1_apply (c : Dev nD) (t : Fin cfg2.N) (f : Fin 10) (q : Fin 64000) (k : (⟨2, ![10, 3200000]⟩ : Shape).Idx)
    (hk0 : (k 0).val = f.val) (hk1 : (k 1).val = win2_2.index t (1 : Fin 2) * 64000 + q.val) :
    (iblk2 (F := Ideal) V c 1 t : Vec Ideal S10x64000 .f32) (ix2 f q)
      = (V c main_v84 : (⟨2, ![10, 3200000]⟩ : Shape).Idx → EReal) k := by
  obtain ⟨-, -, e2, e3, -⟩ := idx_rel t
  unfold iblk2
  rw [View.read_apply]
  show V c main_v84 _ = V c main_v84 _
  congr 1
  funext a
  apply Fin.ext
  match a with
  | ⟨0, _⟩ => show win2_1.index t (0 : Fin 2) * 10 + 1 * f.val = (k 0).val; rw [e2, hk0]; omega
  | ⟨1, _⟩ => show win2_1.index t (1 : Fin 2) * 64000 + 1 * q.val = (k 1).val; rw [e3, hk1]; omega

/-- What grid point t writes back is its block of the column dot products of the two operand arrays. -/
theorem flushed_eq (c : Dev nD) (t : Fin cfg2.N) :
    (dat2 (F := Ideal) V c).flushed 2 t
      = ((cfg2.win 2).blk t).view.read (Elt Ideal)
          (Cert.Spec.colDot (C := 10) (L := 3200000) (V c main_v77) (V c main_v84)) := by
  show (cfg2.win 2).cut (grid2.coords t) ((dat2 V c).after 2 t) = _
  rw [after2_2]
  unfold out2_2
  rw [View.canon_unit_zero zeroOff]
  simp only [View.ld_unit_zero (S := S10x64000) zeroOff]
  funext j
  obtain ⟨p, q, rfl⟩ : ∃ (p : Fin 1) (q : Fin 64000), j = ix2 p q := ⟨j 0, j 1, eq_ix2 j⟩
  obtain rfl : p = 0 := Subsingleton.elim _ _
  -- the index inside the uncut block is the index itself
  have hin : (win2 2).xinj (grid2.coords t) (ix2 (0 : Fin 1) q) = ix2 (0 : Fin 1) q := by
    funext a; apply Fin.ext
    match a with
    | ⟨0, _⟩ => rfl
    | ⟨1, _⟩ => rfl
  refine (congrArg (k2_pay1 (F := Ideal) (iblk2 V c 0 t) (iblk2 V c 1 t)) hin).trans ?_
  refine (pay_apply (iblk2 V c 0 t) (iblk2 V c 1 t) q).trans ?_
  show _ = Cert.Spec.colDot (C := 10) (L := 3200000) (V c main_v77) (V c main_v84)
      (((cfg2.win 2).blk t).view.emb (ix2 (0 : Fin 1) q))
  unfold Cert.Spec.colDot
  refine Finset.sum_congr rfl fun f _ => ?_
  -- the array column under lane q of the block
  have hcol : ((((cfg2.win 2).blk t).view.emb (ix2 (0 : Fin 1) q)) 1 : Nat)
      = win2_2.index t (1 : Fin 2) * 64000 + q.val := by
    show win2_2.index t (1 : Fin 2) * 64000 + 1 * q.val = _
    omega
  refine congrArg₂ (fun a b : EReal => a * b) ?_ ?_
  · exact iblk0_apply V c t f q _ rfl hcol
  · exact iblk1_apply V c t f q _ rfl hcol

/-- An index of the result array is in grid point t's block exactly when each coordinate is in the block's range on
    its axis. -/
theorem mem_blk (t : Fin cfg2.N) (i : S1x3200000.Idx) :
    i ∈ ((cfg2.win 2).blk t).view.set ↔ ∀ a : Fin 2, win2_2.index t a * S1x64000.size a ≤ (i a).val
      ∧ (i a).val < win2_2.index t a * S1x64000.size a + S1x64000.size a := by
  show i ∈ ((View.whole main_v85).slice (win2_2.rect t)).set ↔ _
  rw [View.set_slice_whole, Rect.mem_set_unit]
  exact Iff.rfl

/-- The 50 column blocks tile the result: column e is in the block of the grid point at column block e / 64000,
    and every point writes back. -/
theorem cover (i : S1x3200000.Idx) :
    ∃ t : Fin cfg2.N, (cfg2.win 2).flush t = true ∧ i ∈ ((cfg2.win 2).blk t).view.set := by
  have hi0 : (i 0).val < 1 := (i 0).isLt
  have hi1 : (i 1).val < 3200000 := (i 1).isLt
  obtain ⟨t, ht⟩ := idx_onto ⟨(i 1).val / 64000, by omega⟩
  have q0 : win2_2.index t (0 : Fin 2) = 0 := congrFun ht 0
  have q1 : win2_2.index t (1 : Fin 2) = (i 1).val / 64000 := congrFun ht 1
  refine ⟨t, flush2_2 t, ?_⟩
  rw [mem_blk]
  intro a
  match a with
  | ⟨0, _⟩ =>
    show win2_2.index t (0 : Fin 2) * 1 ≤ (i 0).val ∧ (i 0).val < win2_2.index t (0 : Fin 2) * 1 + 1
    omega
  | ⟨1, _⟩ =>
    show win2_2.index t (1 : Fin 2) * 64000 ≤ (i 1).val ∧ (i 1).val < win2_2.index t (1 : Fin 2) * 64000 + 64000
    omega

/-- After region 2 its result array holds the column dot products of its two operand arrays as the region found them. -/
theorem array2 (c : Dev nD) :
    (dat2 (F := Ideal) V c).arrAt 2 cfg2.N
      = Cert.Spec.colDot (C := 10) (L := 3200000) (V c main_v77) (V c main_v84) :=
  (dat2 (F := Ideal) V c).arrAt_eq_of_cover 2 _ (fun t _ => flushed_eq V c t) cover

end Cert.KernelIdeal.DecVal

end
-- ==== Proof.LibGatherAt.lean ====
/-
  A gather of rows (y = x[i, :]) and a gather of columns (y = x[:, i]) read at an index.

  The start index is read signed off the index array and clamped so that the one-row (one-column) slice fits:
  entry e names row  min (toNat (toInt idx[e, 0])) (M - 1)  of an operand with M rows.  Both gathers read the
  operand at that clamped row (column) and at the result's own column (row).
-/
import Idealize.ShloMosaic.PureOps.Ideal
import Idealize.ShloMosaic.Lib.ValueIdx

noncomputable section

namespace Cert.GatherAt

open Idealize.ShloMosaic Idealize.ShloMosaic.ValueIdx

/-- The row of an M-row operand that entry e of an [E, 1] index array names: the index word read signed, negative
    words to 0, clamped to the last row. -/
def rowOf {M E w : Nat} (hM : 0 < M) (idx : IVec ⟨2, ![E, 1]⟩ w) (e : Fin E) : Fin M :=
  ⟨min (idx (ix2 e (0 : Fin 1))).toInt.toNat (M - 1), by omega⟩

/-- A row gather reads the operand at the clamped row its index word names, at the result's column. -/
theorem gather_rows_at {α : Type} {M C E w : Nat} (hM : 0 < M) (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![M, C]⟩ : Shape).Idx → α) (idx : IVec ⟨2, ![E, 1]⟩ w) (e : Fin E) (c : Fin C) :
    Host.gather d x idx (ix2 e c) = x (ix2 (rowOf hM idx e) c) := by
  obtain ⟨od, cd, ob, sb, sm, iv, ss, wf⟩ := d
  dsimp only at h1 h2 h3 h4 h5 h6 h7
  subst h1 h2 h3 h4 h5 h6 h7
  unfold Host.gather
  refine congrArg x (funext fun a => Fin.ext ?_)
  match a with
  | ⟨0, _⟩ =>
    -- the row axis is collapsed (no offset coordinate) and named by the start index map: the clamped start alone
    show GatherDims.start _ (ix2 e c) idx 0 + GatherDims.batchCoord _ (ix2 e c) 0 + GatherDims.offCoord _ (ix2 e c) 0
      = min (idx (ix2 e (0 : Fin 1))).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis is not named by the start index map (start 0); its offset coordinate is the result's column
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- A column gather reads the operand at the result's row, at the clamped column its index word names. -/
theorem gather_cols_at {α : Type} {M C E w : Nat} (hM : 0 < M) (d : GatherDims ⟨2, ![C, M]⟩ ⟨2, ![E, 1]⟩ ⟨2, ![C, E]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![C, 1])
    (x : (⟨2, ![C, M]⟩ : Shape).Idx → α) (idx : IVec ⟨2, ![E, 1]⟩ w) (e : Fin E) (c : Fin C) :
    Host.gather d x idx (ix2 c e) = x (ix2 c (rowOf hM idx e)) := by
  obtain ⟨od, cd, ob, sb, sm, iv, ss, wf⟩ := d
  dsimp only at h1 h2 h3 h4 h5 h6 h7
  subst h1 h2 h3 h4 h5 h6 h7
  unfold Host.gather
  refine congrArg x (funext fun a => Fin.ext ?_)
  match a with
  | ⟨0, _⟩ =>
    -- the row axis is not named by the start index map (start 0); its offset coordinate is the result's row
    show GatherDims.start _ (ix2 c e) idx 0 + GatherDims.batchCoord _ (ix2 c e) 0 + GatherDims.offCoord _ (ix2 c e) 0 = c.val
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr ⟨show (0 : Fin 2) ∉ ([1] : List (Fin 2)) by decide, List.not_mem_nil⟩)]
    rfl
  | ⟨1, _⟩ =>
    -- the column axis is collapsed (no offset coordinate) and named by the start index map: the clamped start alone
    show GatherDims.start _ (ix2 c e) idx 1 + GatherDims.batchCoord _ (ix2 c e) 1 + GatherDims.offCoord _ (ix2 c e) 1
      = min (idx (ix2 e (0 : Fin 1))).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[0], [1], [], [], [1], 1, ![C, 1], wf⟩ : GatherDims ⟨2, ![C, M]⟩ ⟨2, ![E, 1]⟩ ⟨2, ![C, E]⟩)
        (ix2 c e) ⟨List.idxOf (1 : Fin 2) [1], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.GatherAt

end
-- ==== Proof.DecodeBridge.lean ====
/-
  The decode step on both sides is one function of the node table z.

  The kernel gathers columns of the transposed table and sums the entrywise product of two such gathers over the rows;
  the reference gathers rows of the table and sums the entrywise product over the columns.  Both gathers read the same
  clamped row of z for edge e, so for every edge both are the sum over the features f of z[r0(e), f] · z[r1(e), f].
-/
import Idealize.ShloMosaic.PureOps.Ideal
import Idealize.ShloMosaic.Lib.ValueIdx
import proofs.«103603_j46858093199675_1_alg».proof.Proof.Spec
import proofs.«103603_j46858093199675_1_alg».proof.Proof.LibGatherAt

noncomputable section

open scoped BigOperators

namespace Cert.DecodeBridge

open Idealize.ShloMosaic Idealize.ShloMosaic.ValueIdx Cert.GatherAt

/-- The column dot products of two column gathers of the transposed table are, edge by edge, the row dot products of
    the two row gathers of the table. -/
theorem colDot_gather_cols {M C E w : Nat} (hM : 0 < M)
    (dT : GatherDims ⟨2, ![C, M]⟩ ⟨2, ![E, 1]⟩ ⟨2, ![C, E]⟩)
    (t1 : dT.offsetDims = [0]) (t2 : dT.collapsedSliceDims = [1]) (t3 : dT.operandBatchingDims = [])
    (t4 : dT.startIndicesBatchingDims = []) (t5 : dT.startIndexMap = [1]) (t6 : dT.indexVectorDim = 1)
    (t7 : dT.sliceSizes = ![C, 1])
    (dR : GatherDims ⟨2, ![M, C]⟩ ⟨2, ![E, 1]⟩ ⟨2, ![E, C]⟩)
    (r1 : dR.offsetDims = [1]) (r2 : dR.collapsedSliceDims = [0]) (r3 : dR.operandBatchingDims = [])
    (r4 : dR.startIndicesBatchingDims = []) (r5 : dR.startIndexMap = [0]) (r6 : dR.indexVectorDim = 1)
    (r7 : dR.sliceSizes = ![1, C])
    (z : (⟨2, ![M, C]⟩ : Shape).Idx → EReal) (zT : (⟨2, ![C, M]⟩ : Shape).Idx → EReal)
    (hzT : ∀ (f : Fin C) (r : Fin M), zT (ix2 f r) = z (ix2 r f))
    (i0 i1 : IVec ⟨2, ![E, 1]⟩ w) (e : Fin E) :
    Cert.Spec.colDot (Host.gather dT zT i0) (Host.gather dT zT i1) (ix2 (0 : Fin 1) e)
      = ∑ f : Fin C, Host.gather dR z i0 (ix2 e f) * Host.gather dR z i1 (ix2 e f) := by
  unfold Cert.Spec.colDot
  refine Finset.sum_congr rfl fun f _ => ?_
  have he : (⟨((ix2 (0 : Fin 1) e : (⟨2, ![1, E]⟩ : Shape).Idx) 1).val, idx2_lt1 _⟩ : Fin E) = e := Fin.ext rfl
  rw [he, gather_cols_at hM dT t1 t2 t3 t4 t5 t6 t7, gather_cols_at hM dT t1 t2 t3 t4 t5 t6 t7,
    gather_rows_at hM dR r1 r2 r3 r4 r5 r6 r7, gather_rows_at hM dR r1 r2 r3 r4 r5 r6 r7, hzT, hzT]

end Cert.DecodeBridge

end
-- ==== Proof.Final.lean ====
/-
  The kernel program's result is the reference's result.

  The chain of boundary contents is instantiated at the extended reals with the three regions' arrays: region 0's and
  region 1's are the reference's two dot_generals, region 2's is the column dot product of its two operands.  Edge by
  edge that column dot product, of two column gathers of the transposed node table, is the reference's sum over the
  ten features of the product of two row gathers of the node table: both read the table at the same two clamped rows.
-/
import proofs.«103603_j46858093199675_1_alg».proof.Proof.ChainC
import proofs.«103603_j46858093199675_1_alg».proof.Proof.MatVal0
import proofs.«103603_j46858093199675_1_alg».proof.Proof.MatVal1
import proofs.«103603_j46858093199675_1_alg».proof.Proof.DecVal
import proofs.«103603_j46858093199675_1_alg».proof.Proof.DecodeBridge
import Idealize.ShloMosaic.Lib.Pipeline.Value

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem Idealize.ShloMosaic.StableHlo

/-- A [1, 3200000] array read as a vector: entry e is entry (0, e). -/
theorem row_as_vector (X : (⟨2, ![1, 3200000]⟩ : Shape).Idx → EReal) (i : S3200000.Idx) :
    shapeCast S3200000 X shapeCasts_S1x3200000_S3200000 i
      = X (ix2 (0 : Fin 1) (⟨(i 0).val, (i 0).isLt⟩ : Fin 3200000)) :=
  shapeCast_apply X shapeCasts_S1x3200000_S3200000 i _ (by
    rewrite [Shape.rowMajor_val_two, Shape.rowMajor_val_one]
    have h0 : (i 0).val < 3200000 := (i 0).isLt
    show 0 * 3200000 + (i 0).val = (i 0).val
    omega)

/-- The transposed node table at (f, r) is the node table at (r, f). -/
theorem transposed_apply (z : (⟨2, ![100000, 10]⟩ : Shape).Idx → EReal) (f : Fin 10) (r : Fin 100000) :
    transpose S10x100000 [1, 0] z transposes_S100000x10_S10x100000_1_0 (ix2 f r) = z (ix2 r f) :=
  transpose_apply [1, 0] z transposes_S100000x10_S10x100000_1_0 (ix2 f r) (ix2 r f)
    (fun b => match b with | ⟨0, _⟩ => rfl | ⟨1, _⟩ => rfl)

variable (m : (ℓ : Loc nD τ sig) → Buf (Elt Ideal) ℓ) (ρ : Dev nD → PrngReg)

set_option maxHeartbeats 4000000 in
/-- After the kernel program's last host operation its result buffer holds the reference's result term of the
    launch arguments. -/
theorem result_eq (c : Dev nD) :
    W10 m ρ c (Proc.devRef .tc main_v86)
      = Cert.ReferenceIdeal.ReadP.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- region 0: the first matrix product
  have e0 : V3 m ρ c main_arg0 = (m ((c : Thread nD τ).loc main_arg0)) := Chain.w3_arg0 m ρ c
  have e1 : V3 m ρ c main_arg1 = (m ((c : Thread nD τ).loc main_arg1)) := Chain.w3_arg1 m ρ c
  have h0 : W4 m ρ c (Proc.devRef .tc main_v30) = Cert.ReferenceIdeal.ReadP.val_main_v7 (F := Ideal) (m ((c : Thread nD τ).loc main_arg0)) (m ((c : Thread nD τ).loc main_arg1)) := by
    refine (W4_arr m ρ c 2).trans ((MatVal0.array0 (V3 m ρ) c).trans ?_)
    rw [e0, e1]
    exact Chain.mm_eq_v7 _ _
  -- region 1: the second matrix product, of the first layer's output
  have h47 : V6 m ρ c main_v47 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg5)) :=
    Chain.w6_v47 m ρ c _ _ h0
  have h3 : V6 m ρ c main_arg3 = (m ((c : Thread nD τ).loc main_arg3)) := Chain.w6_arg3 m ρ c
  have h1 : W7 m ρ c (Proc.devRef .tc main_v48)
      = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
    refine (W7_arr m ρ c 2).trans ((MatVal1.array1 (V6 m ρ) c).trans ?_)
    rw [h47, h3]
    exact Chain.mm_eq_v48 _ _ _ _ _
  -- region 2: the column dot product of the two gathered operands
  have h77 := Chain.w8_v77 m ρ c _ _ _ _ h1
  have h84 := Chain.w8_v84 m ρ c _ _ _ _ h1
  have h85 : W9 m ρ c (Proc.devRef .tc main_v85)
      = Cert.Spec.colDot (C := 10) (L := 3200000) (V8 m ρ c main_v77) (V8 m ρ c main_v84) :=
    (W9_arr m ρ c 2).trans (DecVal.array2 (V8 m ρ) c)
  rw [Chain.w10_v86, h85]
  rw [show V8 m ρ c main_v77 = _ from h77, show V8 m ρ c main_v84 = _ from h84]
  funext i
  rw [row_as_vector, Cert.ReferenceIdeal.ReadP.val_main_v108_apply]
  -- the reference's sum starts from the zero word
  have hc : ∀ j, Cert.ReferenceIdeal.ReadP.val_main_cst_24 (F := Ideal) j = 0 := fun j => by
    rw [Cert.ReferenceIdeal.ReadP.val_main_cst_24_apply]
    exact Ideal.ofBits_zero_f32
  rw [hc, zero_add]
  -- edge e = i's coordinate: both sides read the node table at the same two clamped rows
  refine (Cert.DecodeBridge.colDot_gather_cols (M := 100000) (C := 10) (E := 3200000) (by decide)
    gather_S10x100000_S3200000x1_S10x3200000_0_1_n_n_1_1_101 rfl rfl rfl rfl rfl rfl rfl
    Cert.ReferenceIdeal.gather_S100000x10_S3200000x1_S3200000x10_1_0_n_n_0_1_110 rfl rfl rfl rfl rfl rfl rfl
    (Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) _
    (fun f r => transposed_apply _ f r) _ _ (⟨(i 0).val, (i 0).isLt⟩ : Fin 3200000)).trans ?_
  refine Finset.sum_congr rfl fun f _ => ?_
  have hidx : Cert.ReferenceIdeal.ReadP.idx_main_v108 i f = ix2 (⟨(i 0).val, (i 0).isLt⟩ : Fin 3200000) f :=
    funext fun a => match a with | ⟨0, _⟩ => rfl | ⟨1, _⟩ => rfl
  rw [Cert.ReferenceIdeal.ReadP.val_main_v107_apply, hidx]
  rfl

end Cert.KernelIdeal.Final

end
-- ==== Proof.lean ====
/-
  A two-layer graph convolution followed by an edge-wise dot product, its two dense products and its decode reduction
  computed by three tiled kernels, against the plain reference: equal results on the extended reals.

  Both programs append the self-loops to the message edges, count in-degrees by a scatter-add of ones, take
  dinv = rsqrt(deg) where deg > 0 (else 0) and norm = dinv[src] · dinv[dst]; each layer is
  out = scatter-add by dst of (H[src] · norm) + bias with H = X · W, the first followed by max(·, 0).  The kernel program
  computes X · W in 20 row blocks of 5000 with the operands narrowed to bf16 (the identity on the extended reals) and a
  zero accumulator; block by block this is the whole product, the reference's dot_general.  For the decode the kernel
  program gathers columns of the transposed node table z at the two endpoints of each of the 3200000 edges and sums the
  entrywise product over the ten rows, in 50 column blocks of 64000; the reference gathers rows of z and sums over the ten
  columns from 0.  Both gathers read the table at the same clamped row, so edge by edge both are the sum over f of
  z[r0, f] · z[r1, f].  No step uses more than the commutative-monoid structure of the extended reals, so the
  finiteness of the inputs is not used.

  The three frames: the kernel programs' are generated whole; the reference's is its run with the result dropped.  The
  idealization rewrote no operation, so `preserves` is `True`.
-/
import proofs.«103603_j46858093199675_1_alg».proof.Defs
import proofs.«103603_j46858093199675_1_alg».proof.Proof.Gen.Kernel
import proofs.«103603_j46858093199675_1_alg».proof.Proof.Gen.Kernel.Skeleton
import proofs.«103603_j46858093199675_1_alg».proof.Proof.Gen.Kernel.Launch
import proofs.«103603_j46858093199675_1_alg».proof.Proof.Gen.Kernel.Points
import proofs.«103603_j46858093199675_1_alg».proof.Proof.Gen.Kernel.Frame
import proofs.«103603_j46858093199675_1_alg».proof.Proof.Gen.KernelIdeal
import proofs.«103603_j46858093199675_1_alg».proof.Proof.Gen.KernelIdeal.Skeleton
import proofs.«103603_j46858093199675_1_alg».proof.Proof.Gen.KernelIdeal.Launch
import proofs.«103603_j46858093199675_1_alg».proof.Proof.Gen.KernelIdeal.Points
import proofs.«103603_j46858093199675_1_alg».proof.Proof.Gen.KernelIdeal.Frame
import proofs.«103603_j46858093199675_1_alg».proof.Proof.Gen.ReferenceIdeal
import proofs.«103603_j46858093199675_1_alg».proof.Proof.Gen.Pre_finite_inputs
import proofs.«103603_j46858093199675_1_alg».proof.Proof.RefRun
import proofs.«103603_j46858093199675_1_alg».proof.Proof.RefRead
import proofs.«103603_j46858093199675_1_alg».proof.Proof.KRun
import proofs.«103603_j46858093199675_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the reference's result term of the launch arguments: the kernel
    program's last boundary holds it (`Final.result_eq`), and the reference's run states it of its own arguments,
    which agree with the kernel program's. -/
theorem algebraic : Cert.algebraic_KernelIdeal_ReferenceIdeal := by
  intro m ρ m' ρ' _ hagree
  refine ⟨fun c => Cert.ReferenceIdeal.ReadP.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Final.result_eq m ρ c), (h c).2⟩)
      (Cert.KernelIdeal.GenRun.run_result (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v108_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
